-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : FVec F S96x96 .f32) (main_arg2 : FVec F S96 .f32) (main_arg3 : FVec F S96x96 .f32) (main_arg4 : FVec F S96 .f32) (main_arg5 : IVec S800000 32) (main_arg6 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_v13 main_v16
-- ==== Kernel.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S5000x96 : Shape := ⟨2, ![5000, 96]⟩
abbrev S1x96 : Shape := ⟨2, ![1, 96]⟩

abbrev nBuf : Space → Nat
  | .hbm => 21
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S96, .f32⟩
  | .local _ .vmem, ⟨6, _⟩ => ⟨S96x96, .f32⟩
  | .local _ .vmem, ⟨7, _⟩ => ⟨S96, .f32⟩
  | .local _ .vmem, ⟨8, _⟩ => ⟨S5000x96, .f32⟩
  | .local _ .vmem, ⟨9, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96.size a ≤ S96.size a
  hwx0_3 : ∀ i : grid0.Coords, EltTy.bits .f32 = 32 ∨ (Rect.block (s := S96) S96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩

abbrev nBuf : Space → Nat
  | .hbm => 35
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S_, .f32⟩
  | .hbm, ⟨21, _⟩ => ⟨S50000x96, .f32⟩
  | .hbm, ⟨22, _⟩ => ⟨S50000x96, .f32⟩
  | .hbm, ⟨23, _⟩ => ⟨S50000x96, .f32⟩
  | .hbm, ⟨24, _⟩ => ⟨S50000x96, .f32⟩
  | .hbm, ⟨25, _⟩ => ⟨S1x96, .f32⟩
  | .hbm, ⟨26, _⟩ => ⟨S50000x96, .f32⟩
  | .hbm, ⟨27, _⟩ => ⟨S50000x96, .f32⟩
  | .hbm, ⟨28, _⟩ => ⟨S_, .f32⟩
  | .hbm, ⟨29, _⟩ => ⟨S50000x96, .f32⟩
  | .hbm, ⟨30, _⟩ => ⟨S50000x96, .f32⟩
  | .hbm, ⟨31, _⟩ => ⟨S50000x96, .f32⟩
  | .hbm, ⟨32, _⟩ => ⟨S1x96, .f32⟩
  | .hbm, ⟨33, _⟩ => ⟨S50000x96, .f32⟩
  | .hbm, ⟨34, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.MlpSpec.lean ====
/-
  The node update of a graph-isomorphism convolution, as a function of its arrays.

  With x the node features, n the summed neighbour messages, W₁, W₂ two 96 × 96 weight matrices and b₁, b₂ two bias
  rows, row r of the result is

      out (r, q) = Σ_k max (Σ_j (1 · x (r, j) + n (r, j)) · W₁ (j, k) + b₁ k, 0) · W₂ (k, q) + b₂ q

  on the extended reals. It is two dense layers (a matrix product plus a bias row) around an entrywise maximum with
  zero, applied to the entrywise residual 1 · x + n. The number of rows R is a parameter: the same formula describes a
  block of rows and the whole array, and row r of the result depends on row r of x and of n only, which is what lets
  a computation carried out block of rows by block of rows be compared with one carried out on the whole array.

  Both ways a dense layer is written are this one function: a matrix product into a zero accumulator followed by the
  bias row viewed as a 1 × 96 matrix and repeated down the rows, and a general dot product followed by the bias row
  broadcast first to 1 × 96 and then to R × 96. A change of float format is the identity on extended reals, so the
  narrowing of a product's operands does not show in the formula.
-/
import proofs.«144064_j28716151341439_1_alg».proof.Proof.LibPlainDot
import Idealize.ShloMosaic.Lib.ValueLayout

noncomputable section

open scoped BigOperators

namespace Cert.GinMlp

open Idealize.ShloMosaic Idealize.ShloMosaic.ValueIdx Idealize.ShloMosaic.PlainDot

/-- The extended real the single-precision word of 1.0 denotes. -/
abbrev one : EReal := Ideal.ofBits .f32 0x3F800000#32
/-- The extended real the single-precision word of 0.0 denotes. -/
abbrev zero : EReal := Ideal.ofBits .f32 0x00000000#32

section Rows
variable {R : Nat}

/-- A dense layer on R rows of width 96: the matrix product of l with w, plus the bias b of the column. -/
def dense (l : (⟨2, ![R, 96]⟩ : Shape).Idx → EReal) (w : (⟨2, ![96, 96]⟩ : Shape).Idx → EReal)
    (b : (⟨1, ![96]⟩ : Shape).Idx → EReal) : (⟨2, ![R, 96]⟩ : Shape).Idx → EReal :=
  fun i => (∑ κ : Fin 96, l (ix2 (n0 := R) (n1 := 96) (i 0) κ) * w (ix2 (n0 := 96) (n1 := 96) κ (i 1))) + b (ix1 (n := 96) (i 1))

/-- The layer at row p, column q. -/
theorem dense_apply (l : (⟨2, ![R, 96]⟩ : Shape).Idx → EReal) (w : (⟨2, ![96, 96]⟩ : Shape).Idx → EReal)
    (b : (⟨1, ![96]⟩ : Shape).Idx → EReal) (p : Fin R) (q : Fin 96) :
    dense l w b (ix2 p q) = (∑ κ : Fin 96, l (ix2 p κ) * w (ix2 κ q)) + b (ix1 q) := rfl

/-- The residual 1 · x + n, entry by entry. -/
def residual (x nb : (⟨2, ![R, 96]⟩ : Shape).Idx → EReal) : (⟨2, ![R, 96]⟩ : Shape).Idx → EReal :=
  fun i => one * x i + nb i

/-- The maximum with zero, entry by entry. -/
def relu (h : (⟨2, ![R, 96]⟩ : Shape).Idx → EReal) : (⟨2, ![R, 96]⟩ : Shape).Idx → EReal :=
  fun i => max (h i) zero

/-- The node update on R rows: dense, maximum with zero, dense, of the residual. -/
def mlp (x nb : (⟨2, ![R, 96]⟩ : Shape).Idx → EReal) (w1 : (⟨2, ![96, 96]⟩ : Shape).Idx → EReal)
    (b1 : (⟨1, ![96]⟩ : Shape).Idx → EReal) (w2 : (⟨2, ![96, 96]⟩ : Shape).Idx → EReal)
    (b2 : (⟨1, ![96]⟩ : Shape).Idx → EReal) : (⟨2, ![R, 96]⟩ : Shape).Idx → EReal :=
  dense (relu (dense (residual x nb) w1 b1)) w2 b2

/-- The update at row p, column q, written out. -/
theorem mlp_apply (x nb : (⟨2, ![R, 96]⟩ : Shape).Idx → EReal) (w1 : (⟨2, ![96, 96]⟩ : Shape).Idx → EReal)
    (b1 : (⟨1, ![96]⟩ : Shape).Idx → EReal) (w2 : (⟨2, ![96, 96]⟩ : Shape).Idx → EReal)
    (b2 : (⟨1, ![96]⟩ : Shape).Idx → EReal) (p : Fin R) (q : Fin 96) :
    mlp x nb w1 b1 w2 b2 (ix2 p q)
      = (∑ k : Fin 96, max ((∑ j : Fin 96, (one * x (ix2 p j) + nb (ix2 p j)) * w1 (ix2 j k)) + b1 (ix1 k)) zero * w2 (ix2 k q))
        + b2 (ix1 q) := rfl

/-- A bias row viewed as a 1 × 96 matrix and repeated down R rows reads, at (p, q), the bias of column q. -/
theorem bias_rows_apply (b : (⟨1, ![96]⟩ : Shape).Idx → EReal) (h1 : (⟨1, ![96]⟩ : Shape).ShapeCasts ⟨2, ![1, 96]⟩)
    (h2 : (⟨2, ![1, 96]⟩ : Shape).Broadcasts ⟨2, ![R, 96]⟩) (p : Fin R) (q : Fin 96) :
    broadcastTo ⟨2, ![R, 96]⟩ (shapeCast ⟨2, ![1, 96]⟩ b h1) h2 (ix2 p q) = b (ix1 q) :=
  (broadcastTo_1b_ab_apply _ h2 p q).trans (shapeCast_a_1a_apply b h1 0 q)

/-- A bias row broadcast along axis 1 of a 1 × 96 matrix and then along both axes of an R × 96 matrix reads, at
    (p, q), the bias of column q. -/
theorem bias_bcast_apply (b : (⟨1, ![96]⟩ : Shape).Idx → EReal)
    (h1 : (⟨1, ![96]⟩ : Shape).BroadcastsInDim ⟨2, ![1, 96]⟩ (![1] : Fin 1 → Fin 2))
    (h2 : (⟨2, ![1, 96]⟩ : Shape).BroadcastsInDim ⟨2, ![R, 96]⟩ (![0, 1] : Fin 2 → Fin 2)) (p : Fin R) (q : Fin 96) :
    broadcastInDim ⟨2, ![R, 96]⟩ ![0, 1] h2 (broadcastInDim ⟨2, ![1, 96]⟩ ![1] h1 b) (ix2 p q) = b (ix1 q) := by
  refine (broadcastInDim_apply _ h2 _ (ix2 p q) (ix2 (0 : Fin 1) q) (fun a => match a with
    | ⟨0, _⟩ => by show (0 : Nat) = if (1 : Nat) = 1 then 0 else p.val; rw [if_pos rfl]
    | ⟨1, _⟩ => by show q.val = if (96 : Nat) = 1 then 0 else q.val; rw [if_neg (by decide)])).trans ?_
  exact broadcastInDim_apply _ h1 b (ix2 (0 : Fin 1) q) (ix1 q) (fun a => match a with
    | ⟨0, _⟩ => by show q.val = if (96 : Nat) = 1 then 0 else q.val; rw [if_neg (by decide)])

/-- A matrix product into the zero accumulator plus the repeated bias row is the dense layer, whatever float formats
    the operands were narrowed to. -/
theorem dense_of_matmul {φ₁ φ₂ : FTy} (d : DotDims ⟨2, ![R, 96]⟩ ⟨2, ![96, 96]⟩ ⟨2, ![R, 96]⟩) (hd : IsPlain d)
    (prec : Option ContractPrecision) (l : FVec Ideal ⟨2, ![R, 96]⟩ φ₁) (w : FVec Ideal ⟨2, ![96, 96]⟩ φ₂)
    (b : FVec Ideal ⟨1, ![96]⟩ .f32) (h1 : (⟨1, ![96]⟩ : Shape).ShapeCasts ⟨2, ![1, 96]⟩)
    (h2 : (⟨2, ![1, 96]⟩ : Shape).Broadcasts ⟨2, ![R, 96]⟩) :
    addf (matmul d prec l w (constant ⟨2, ![R, 96]⟩ .f32 0x00000000#32))
        (broadcastTo ⟨2, ![R, 96]⟩ (shapeCast ⟨2, ![1, 96]⟩ b h1) h2)
      = dense l w b := by
  funext i
  obtain ⟨p, q, rfl⟩ : ∃ (p : Fin R) (q : Fin 96), i = ix2 p q := ⟨i 0, i 1, eq_ix2 i⟩
  refine (congrArg₂ (· + ·) (matmul_zero_plain d hd prec l w p q) (bias_rows_apply b h1 h2 p q)).trans ?_
  rfl

/-- A general dot product plus the broadcast bias row is the dense layer. -/
theorem dense_of_dotGeneral {φ₁ φ₂ : FTy} (d : DotDims ⟨2, ![R, 96]⟩ ⟨2, ![96, 96]⟩ ⟨2, ![R, 96]⟩) (hd : IsPlain d)
    (prec : Option ContractPrecision) (l : FVec Ideal ⟨2, ![R, 96]⟩ φ₁) (w : FVec Ideal ⟨2, ![96, 96]⟩ φ₂)
    (b : FVec Ideal ⟨1, ![96]⟩ .f32)
    (h1 : (⟨1, ![96]⟩ : Shape).BroadcastsInDim ⟨2, ![1, 96]⟩ (![1] : Fin 1 → Fin 2))
    (h2 : (⟨2, ![1, 96]⟩ : Shape).BroadcastsInDim ⟨2, ![R, 96]⟩ (![0, 1] : Fin 2 → Fin 2)) :
    addf (Host.dotGeneral d prec l w) (broadcastInDim ⟨2, ![R, 96]⟩ ![0, 1] h2 (broadcastInDim ⟨2, ![1, 96]⟩ ![1] h1 b))
      = dense l w b := by
  funext i
  obtain ⟨p, q, rfl⟩ : ∃ (p : Fin R) (q : Fin 96), i = ix2 p q := ⟨i 0, i 1, eq_ix2 i⟩
  refine (congrArg₂ (· + ·) (dotGeneral_plain d hd prec .single l w p q) (bias_bcast_apply b h1 h2 p q)).trans ?_
  rfl

end Rows

/-- Row p of the update of a block of rows is row r of the update of the whole array, when row p of the block's
    features and messages is row r of the array's: the update of a row reads that row only. -/
theorem mlp_row {R R' : Nat} (x nb : (⟨2, ![R, 96]⟩ : Shape).Idx → EReal) (x' nb' : (⟨2, ![R', 96]⟩ : Shape).Idx → EReal)
    (w1 : (⟨2, ![96, 96]⟩ : Shape).Idx → EReal) (b1 : (⟨1, ![96]⟩ : Shape).Idx → EReal)
    (w2 : (⟨2, ![96, 96]⟩ : Shape).Idx → EReal) (b2 : (⟨1, ![96]⟩ : Shape).Idx → EReal) (p : Fin R) (r : Fin R')
    (hx : ∀ j : Fin 96, x (ix2 p j) = x' (ix2 r j)) (hn : ∀ j : Fin 96, nb (ix2 p j) = nb' (ix2 r j)) (q : Fin 96) :
    mlp x nb w1 b1 w2 b2 (ix2 p q) = mlp x' nb' w1 b1 w2 b2 (ix2 r q) := by
  rw [mlp_apply, mlp_apply]
  simp only [hx, hn]

end Cert.GinMlp

end
-- ==== Proof.KernelRows.lean ====
/-
  The kernel's result array as one function of its arguments.

  The kernel walks the 50000 node rows in ten blocks of 5000. At block t it reads rows 5000 t … 5000 t + 4999 of the
  features and of the summed neighbour messages, the two weight matrices and the two bias rows whole, and writes the
  node update of those 5000 rows (two dense layers around a maximum with zero, of the residual 1 · x + n) to the same
  rows of the result. The update of a row reads that row only, so what block t writes is rows 5000 t … 5000 t + 4999 of
  the update of the whole arrays; the ten blocks tile the result, so the result array ends holding the update of the
  whole arrays. The summed neighbour messages are what the host operations before the kernel leave: a scatter-add,
  into zeros and along the destination indices, of the feature rows gathered along the source indices (negative source
  indices first moved up by the number of rows); that term is kept whole.
-/
import proofs.«144064_j28716151341439_1_alg».proof.Proof.Gen.KernelIdeal.Value
import proofs.«144064_j28716151341439_1_alg».proof.Proof.MlpSpec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Value Cert.GinMlp

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The kernel's products contract the left operand's columns with the right operand's rows and have no batch axes. -/
theorem plain : PlainDot.IsPlain dot_S5000x96_S96x96_S5000x96_1_0_0_1_n_n := ⟨rfl, rfl, rfl, rfl, rfl, rfl⟩

/-- The body's arithmetic on one block of 5000 rows is the node update of that block. -/
theorem pay_eq (x0 x1 : Vec Ideal S5000x96 .f32) (x2 : Vec Ideal S96x96 .f32) (x3 : Vec Ideal S96 .f32)
    (x4 : Vec Ideal S96x96 .f32) (x5 : Vec Ideal S96 .f32) :
    k0_pay1 (F := Ideal) x0 x1 x2 x3 x4 x5 = mlp (R := 5000) x0 x1 x2 x3 x4 x5 := by
  unfold k0_pay1
  dsimp only
  rw [shapeCast_self, dense_of_matmul _ plain, dense_of_matmul _ plain]
  rfl

/-- Where each window's block sits at grid point t: the feature, message and result windows at block row t, the weight
    and bias windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 10 := Nat.lt_of_lt_of_eq t.isLt N_0

/-- Row p of the feature window's block at point t is row 5000 t + p of the features. -/
theorem feat_block (c : Dev nD) (t : Fin cfg0.N) (p : Fin 5000) (j : Fin 96) (h : 5000 * t.val + p.val < 50000) :
    (iblk m c 0 t : S5000x96.Idx → EReal) (ix2 p j) = (V m c main_arg0 : S50000x96.Idx → EReal) (ix2 ⟨5000 * t.val + p.val, h⟩ j) := by
  obtain ⟨e0, e1, -⟩ := idx_facts t
  unfold iblk
  show V m c main_arg0 (((cfg0.win 0).blk t).view.emb (ix2 p j)) = V m c main_arg0 _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 96 + 1 * j.val = j.val; rw [e1]; omega

/-- Row p of the message window's block at point t, read off any array X of the messages' shape, is row 5000 t + p of X. -/
theorem rows_block1 (t : Fin cfg0.N) (X : S50000x96.Idx → EReal) (p : Fin 5000) (j : Fin 96) (h : 5000 * t.val + p.val < 50000) :
    (((cfg0.win 1).blk t).view.read (Elt Ideal) X : S5000x96.Idx → EReal) (ix2 p j) = X (ix2 ⟨5000 * t.val + p.val, h⟩ j) := by
  obtain ⟨-, -, e0, e1, -⟩ := idx_facts t
  show X (((cfg0.win 1).blk t).view.emb (ix2 p j)) = X _
  refine congrArg X (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 96 + 1 * j.val = j.val; rw [e1]; omega

/-- Row p of the message window's block at point t is row 5000 t + p of the summed messages. -/
theorem neigh_block (c : Dev nD) (t : Fin cfg0.N) (p : Fin 5000) (j : Fin 96) (h : 5000 * t.val + p.val < 50000) :
    (iblk m c 1 t : S5000x96.Idx → EReal) (ix2 p j) = (V m c main_v9 : S50000x96.Idx → EReal) (ix2 ⟨5000 * t.val + p.val, h⟩ j) :=
  rows_block1 t (V m c main_v9) p j h

/-- The first weight window's one block is the whole first weight matrix. -/
theorem w1_block (c : Dev nD) (t : Fin cfg0.N) : (iblk m c 2 t : S96x96.Idx → EReal) = (V m c main_arg1 : S96x96.Idx → EReal) := by
  obtain ⟨-, -, -, -, e0, e1, -⟩ := idx_facts t
  funext y
  unfold iblk
  show V m c main_arg1 (((cfg0.win 2).blk t).view.emb y) = V m c main_arg1 y
  refine congrArg _ (funext fun a => Fin.ext ?_)
  match a with
  | ⟨0, _⟩ => show win0_2.index t (0 : Fin 2) * 96 + 1 * (y 0).val = (y 0).val; rw [e0]; omega
  | ⟨1, _⟩ => show win0_2.index t (1 : Fin 2) * 96 + 1 * (y 1).val = (y 1).val; rw [e1]; omega

/-- The first bias window's one block is the whole first bias row. -/
theorem b1_block (c : Dev nD) (t : Fin cfg0.N) : (iblk m c 3 t : S96.Idx → EReal) = (V m c main_arg2 : S96.Idx → EReal) := by
  obtain ⟨-, -, -, -, -, -, e0, -⟩ := idx_facts t
  funext y
  unfold iblk
  show V m c main_arg2 (((cfg0.win 3).blk t).view.emb y) = V m c main_arg2 y
  refine congrArg _ (funext fun a => Fin.ext ?_)
  match a with
  | ⟨0, _⟩ => show win0_3.index t (0 : Fin 1) * 96 + 1 * (y 0).val = (y 0).val; rw [e0]; omega

/-- The second weight window's one block is the whole second weight matrix. -/
theorem w2_block (c : Dev nD) (t : Fin cfg0.N) : (iblk m c 4 t : S96x96.Idx → EReal) = (V m c main_arg3 : S96x96.Idx → EReal) := by
  obtain ⟨-, -, -, -, -, -, -, e0, e1, -⟩ := idx_facts t
  funext y
  unfold iblk
  show V m c main_arg3 (((cfg0.win 4).blk t).view.emb y) = V m c main_arg3 y
  refine congrArg _ (funext fun a => Fin.ext ?_)
  match a with
  | ⟨0, _⟩ => show win0_4.index t (0 : Fin 2) * 96 + 1 * (y 0).val = (y 0).val; rw [e0]; omega
  | ⟨1, _⟩ => show win0_4.index t (1 : Fin 2) * 96 + 1 * (y 1).val = (y 1).val; rw [e1]; omega

/-- The second bias window's one block is the whole second bias row. -/
theorem b2_block (c : Dev nD) (t : Fin cfg0.N) : (iblk m c 5 t : S96.Idx → EReal) = (V m c main_arg4 : S96.Idx → EReal) := by
  obtain ⟨-, -, -, -, -, -, -, -, -, e0, -⟩ := idx_facts t
  funext y
  unfold iblk
  show V m c main_arg4 (((cfg0.win 5).blk t).view.emb y) = V m c main_arg4 y
  refine congrArg _ (funext fun a => Fin.ext ?_)
  match a with
  | ⟨0, _⟩ => show win0_5.index t (0 : Fin 1) * 96 + 1 * (y 0).val = (y 0).val; rw [e0]; omega

/-- The node update of the whole arrays as the kernel finds them. -/
abbrev whole (c : Dev nD) : S50000x96.Idx → EReal :=
  mlp (R := 50000) (V m c main_arg0) (V m c main_v9) (V m c main_arg1) (V m c main_arg2) (V m c main_arg3) (V m c main_arg4)

/-- What grid point t writes back is rows 5000 t … 5000 t + 4999 of the update of the whole arrays. -/
theorem flushed_eq (c : Dev nD) (t : Fin cfg0.N) :
    (dats m 0 c).flushed 6 t = ((cfg0.win 6).blk t).view.read (Elt Ideal) (whole m c) := by
  rw [flushed6]
  unfold out0_6
  rw [View.canon_unit_zero zeros2]
  simp only [View.ld_unit_zero (S := S5000x96) zeros2, View.ld_unit_zero (S := S96x96) zeros2, View.ld_unit_zero (S := S96) zeros1]
  have key := pay_eq (iblk m c 0 t) (iblk m c 1 t) (iblk m c 2 t) (iblk m c 3 t) (iblk m c 4 t) (iblk m c 5 t)
  rw [key]
  funext y
  obtain ⟨p, q, rfl⟩ : ∃ (p : Fin 5000) (q : Fin 96), y = ix2 p q := ⟨y 0, y 1, eq_ix2 y⟩
  have ht := point_lt t
  obtain ⟨-, -, -, -, -, -, -, -, -, -, e0, e1⟩ := idx_facts t
  have hr : 5000 * t.val + p.val < 50000 := by have := p.isLt; omega
  have he : ((cfg0.win 6).blk t).view.emb (ix2 p q) = ix2 (n0 := 50000) (n1 := 96) ⟨5000 * t.val + p.val, hr⟩ q :=
    funext fun a => Fin.ext (by
      match a with
      | ⟨0, _⟩ => show win0_6.index t (0 : Fin 2) * 5000 + 1 * p.val = 5000 * t.val + p.val; rw [e0]; omega
      | ⟨1, _⟩ => show win0_6.index t (1 : Fin 2) * 96 + 1 * q.val = q.val; rw [e1]; omega)
  show mlp (R := 5000) (iblk m c 0 t) (iblk m c 1 t) (iblk m c 2 t) (iblk m c 3 t) (iblk m c 4 t) (iblk m c 5 t) (ix2 p q)
    = whole m c (((cfg0.win 6).blk t).view.emb (ix2 p q))
  rw [he, w1_block, b1_block, w2_block, b2_block]
  exact mlp_row _ _ _ _ _ _ _ _ p ⟨5000 * t.val + p.val, hr⟩ (fun j => feat_block m c t p j hr) (fun j => neigh_block m c t p j hr) q

/-- An index of the result is in point t's block when each coordinate is in the block's range on its axis. -/
theorem mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v10).slice (win0_6.rect t)).set ↔ _
  rw [View.set_slice_whole, Rect.mem_set_unit]
  exact Iff.rfl

/-- Row r of the result is written by the point r / 5000: the ten blocks tile the array. -/
theorem cover (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  obtain ⟨t, htv⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 96 ≤ (i 1).val ∧ (i 1).val < win0_6.index t (1 : Fin 2) * 96 + 96; rw [e1]; omega

/-- The result array after the run is the node update of the whole arrays as the kernel finds them. -/
theorem final (c : Dev nD) : (dats m 0 c).arrAt 6 cfg0.N = whole m c :=
  (dats m 0 c).arrAt_eq_of_cover 6 (whole m c) (fun t _ => flushed_eq m c t) cover

/-- The summed neighbour messages as the host operations before the kernel compute them from the features x, the
    source indices src and the destination indices dst: source indices below zero are moved up by 50000, the feature
    rows are gathered along them, and the gathered rows are added, along the destination indices, into zeros. -/
def neigh (x : S50000x96.Idx → EReal) (src dst : IVec S800000 32) : S50000x96.Idx → EReal :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The message array the kernel finds is that term of the arguments. -/
theorem neigh_found (c : Dev nD) :
    (V m c main_v9 : S50000x96.Idx → EReal)
      = neigh (m ((c : Thread nD τ).loc main_arg0)) (m ((c : Thread nD τ).loc main_arg5)) (m ((c : Thread nD τ).loc main_arg6)) := by
  dsimp only [Gen.V, Gen.hostOps0]
  after_results
  rfl

/-- The update of the whole arrays as the kernel finds them, in terms of the arguments. -/
theorem whole_eq (c : Dev nD) :
    whole m c = mlp (R := 50000) (m ((c : Thread nD τ).loc main_arg0))
      (neigh (m ((c : Thread nD τ).loc main_arg0)) (m ((c : Thread nD τ).loc main_arg5)) (m ((c : Thread nD τ).loc main_arg6)))
      (m ((c : Thread nD τ).loc main_arg1)) (m ((c : Thread nD τ).loc main_arg2)) (m ((c : Thread nD τ).loc main_arg3))
      (m ((c : Thread nD τ).loc main_arg4)) := by
  show mlp (R := 50000) (V m c main_arg0) (V m c main_v9) (V m c main_arg1) (V m c main_arg2) (V m c main_arg3) (V m c main_arg4) = _
  rw [neigh_found m c, V_main_arg0 m c, V_main_arg1 m c, V_main_arg2 m c, V_main_arg3 m c, V_main_arg4 m c]

/-- The kernel's run: the result array ends at the node update of the arguments, the arguments unchanged. -/
theorem run : θ_run defs (onTc (τ := τ) (main (F := Ideal))) ⟨m, fun _ => 0, ρ⟩ fun r => ∀ c : Dev nD,
      r.2.mem ((c : Thread nD τ).loc main_v10) = mlp (R := 50000) (m ((c : Thread nD τ).loc main_arg0))
        (neigh (m ((c : Thread nD τ).loc main_arg0)) (m ((c : Thread nD τ).loc main_arg5)) (m ((c : Thread nD τ).loc main_arg6)))
        (m ((c : Thread nD τ).loc main_arg1)) (m ((c : Thread nD τ).loc main_arg2)) (m ((c : Thread nD τ).loc main_arg3))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (whole_eq m c)), (h c).2⟩)
    (Cert.KernelIdeal.Value.run_blocks m ρ)

end Cert.KernelIdeal.Rows

end
-- ==== Proof.RefRows.lean ====
/-
  The reference's result array as one function of its arguments.

  The reference computes, on the whole arrays at once, the residual 1 · x + n of the features and the summed neighbour
  messages, a dense layer (a general dot product with the first weight matrix plus the first bias row broadcast down
  the rows), the maximum with zero, and a second dense layer. Each dense layer is the sum over the contracted
  coordinate of the products plus the bias of the column, so the result is the node update of the whole arrays. The
  summed neighbour messages, a scatter-add of gathered feature rows, are kept whole.
-/
import proofs.«144064_j28716151341439_1_alg».proof.Proof.Gen.ReferenceIdeal.Read
import proofs.«144064_j28716151341439_1_alg».proof.Proof.MlpSpec

noncomputable section

open Idealize.ShloMosaic Idealize.ShloMosaic.TcCoe Idealize.SL.Sem Idealize.ShloMosaic.ValueIdx

namespace Cert.ReferenceIdeal.Rows

open Cert.ReferenceIdeal Cert.ReferenceIdeal.Gen Cert.ReferenceIdeal.Read Cert.GinMlp

/-- The reference's products contract the left operand's columns with the right operand's rows and have no batch axes. -/
theorem plain : PlainDot.IsPlain dot_S50000x96_S96x96_S50000x96_1_0_0_1_n_n := ⟨rfl, rfl, rfl, rfl, rfl, rfl⟩

/-- The reference's last stage is the node update of the features x0, its own summed messages, the weights x1, x3 and
    the bias rows x2, x4. -/
theorem result_eq (x0 : (⟨S50000x96, .f32⟩ : BufTy).Contents (Elt Ideal)) (x1 : (⟨S96x96, .f32⟩ : BufTy).Contents (Elt Ideal))
    (x2 : (⟨S96, .f32⟩ : BufTy).Contents (Elt Ideal)) (x3 : (⟨S96x96, .f32⟩ : BufTy).Contents (Elt Ideal))
    (x4 : (⟨S96, .f32⟩ : BufTy).Contents (Elt Ideal)) (x5 x6 : (⟨S800000, .i32⟩ : BufTy).Contents (Elt Ideal)) :
    val_main_v21 (F := Ideal) x0 x1 x2 x3 x4 x5 x6
      = mlp (R := 50000) x0 (val_main_v9 (F := Ideal) x0 x5 x6) x1 x2 x3 x4 := by
  unfold val_main_v21 val_main_v18 val_main_v20 val_main_v19 val_main_v17 val_main_v16 val_main_v13 val_main_v15
    val_main_v14 val_main_v12 val_main_v11 val_main_v10 val_main_cst_1 val_main_call0_v0 val_main_call0_cst
  rw [dense_of_dotGeneral _ plain, dense_of_dotGeneral _ plain]
  rfl

end Cert.ReferenceIdeal.Rows

end
-- ==== Proof.lean ====
/-
  A graph-isomorphism convolution's node update, computed by a kernel that walks the node rows in blocks, against the
  same update computed on the whole arrays.

  Both programs first sum, for every node, the feature rows of its in-neighbours: the feature rows are gathered along
  the edges' source indices (a negative index first moved up by the number of nodes) and added, along the edges'
  destination indices, into an array of zeros. Both then form the residual 1 · x + n, apply a dense layer, the maximum
  with zero and a second dense layer. The kernel does the dense part ten blocks of 5000 rows at a time, its products
  taken into zero accumulators on operands narrowed to a shorter float format; on the extended reals a change of float
  format is the identity and each product is the plain sum over the contracted coordinate, and the update of a row
  reads that row only, so the blocks fit together into the update of the whole arrays (Proof/KernelRows.lean). The
  reference's whole-array stages are the same sums (Proof/RefRows.lean). The two summed-message terms are one term of
  the arguments, read off the two programs' host operations. No law of arithmetic is needed beyond that, and in
  particular nothing that would fail at an infinity, so the finiteness of the inputs is not used.
-/
import proofs.«144064_j28716151341439_1_alg».proof.Defs
import proofs.«144064_j28716151341439_1_alg».proof.Proof.Gen.Kernel
import proofs.«144064_j28716151341439_1_alg».proof.Proof.Gen.Kernel.Skeleton
import proofs.«144064_j28716151341439_1_alg».proof.Proof.Gen.Kernel.Launch
import proofs.«144064_j28716151341439_1_alg».proof.Proof.Gen.Kernel.Points
import proofs.«144064_j28716151341439_1_alg».proof.Proof.Gen.Kernel.Frame
import proofs.«144064_j28716151341439_1_alg».proof.Proof.Gen.KernelIdeal
import proofs.«144064_j28716151341439_1_alg».proof.Proof.Gen.KernelIdeal.Skeleton
import proofs.«144064_j28716151341439_1_alg».proof.Proof.Gen.KernelIdeal.Launch
import proofs.«144064_j28716151341439_1_alg».proof.Proof.Gen.KernelIdeal.Points
import proofs.«144064_j28716151341439_1_alg».proof.Proof.Gen.KernelIdeal.Frame
import proofs.«144064_j28716151341439_1_alg».proof.Proof.Gen.ReferenceIdeal
import proofs.«144064_j28716151341439_1_alg».proof.Proof.Gen.KernelIdeal.Value
import proofs.«144064_j28716151341439_1_alg».proof.Proof.Gen.ReferenceIdeal.Run
import proofs.«144064_j28716151341439_1_alg».proof.Proof.Gen.ReferenceIdeal.Read
import proofs.«144064_j28716151341439_1_alg».proof.Proof.Gen.Pre_finite_inputs
import proofs.«144064_j28716151341439_1_alg».proof.Proof.KernelRows
import proofs.«144064_j28716151341439_1_alg».proof.Proof.RefRows
import Idealize.ShloMosaic.Adequacy
import Idealize.ShloMosaic.Init

noncomputable section

namespace Cert.Proof

open Idealize.ShloMosaic Idealize.ShloMosaic.TcCoe Idealize.SL.Sem

/-- The kernel's and the reference's summed neighbour messages are one term of the features and the two index
    arrays: the same gather and scatter-add with the same dimension numbers, over the same constants. -/
theorem neigh_same (x : (⟨Cert.ReferenceIdeal.S50000x96, .f32⟩ : BufTy).Contents (Elt Ideal))
    (src dst : (⟨Cert.ReferenceIdeal.S800000, .i32⟩ : BufTy).Contents (Elt Ideal)) :
    Cert.ReferenceIdeal.Read.val_main_v9 (F := Ideal) x src dst = Cert.KernelIdeal.Rows.neigh x src dst := rfl

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result array at the node update of the
    arguments: the kernel block of rows by block of rows, the reference on the whole arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  refine (Cert.ReferenceIdeal.Read.val_main_v21_eq _ _ _ _ _ _ _).trans ?_
  refine (Cert.ReferenceIdeal.Rows.result_eq _ _ _ _ _ _ _).trans ?_
  rw [neigh_same, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
